-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x16 : Shape := ⟨3, ![4096, 1, 16]⟩
abbrev S4096x16 : Shape := ⟨2, ![4096, 16]⟩
abbrev S4096x16x16 : Shape := ⟨3, ![4096, 16, 16]⟩
abbrev S_ : Shape := ⟨0, ![]⟩

class Facts : Prop where
  bcast_S_S4096x1x16 : S_.BroadcastsInDim S4096x1x16 (![] : Fin 0 → Fin S4096x1x16.rank)
  reducesTo_S4096x1x16_S_d0_1_2 : S4096x1x16.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x16x16 : S_.BroadcastsInDim S4096x16x16 (![] : Fin 0 → Fin S4096x16x16.rank)
  reducesTo_S4096x16x16_S_d0_1_2 : S4096x16x16.ReducesTo [0, 1, 2] S_

variable [Facts]

def fn {F : FTy → Type} [FloatOps F] (main_arg0 : FVec F S4096x1x16 .f32) (main_arg1 : FVec F S4096x16 .f32) (main_arg2 : FVec F S4096x16x16 .f32) : IVec S_ 1 :=
  let main_v0 : FVec F S4096x1x16 .f32 := Host.absf main_arg0
  let main_cst : FVec F S_ .f32 := constant S_ .f32 0x7F800000#32
  let main_v1 : FVec F S4096x1x16 .f32 := broadcastInDim S4096x1x16 ![] bcast_S_S4096x1x16 main_cst
  let main_v2 : IVec S4096x1x16 1 := cmpf .olt main_v0 main_v1
  let main_c : IVec S_ 1 := constantI S_ 1 1#1
  let main_v3 : IVec S_ 1 := (fun x v => Host.reduce IntOp.andi x v reducesTo_S4096x1x16_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x16x16 .f32 := Host.absf main_arg2
  let main_cst_2 : FVec F S_ .f32 := constant S_ .f32 0x7F800000#32
  let main_v10 : FVec F S4096x16x16 .f32 := broadcastInDim S4096x16x16 ![] bcast_S_S4096x16x16 main_cst_2
  let main_v11 : IVec S4096x16x16 1 := cmpf .olt main_v9 main_v10
  let main_c_3 : IVec S_ 1 := constantI S_ 1 1#1
  let main_v12 : IVec S_ 1 := (fun x v => Host.reduce IntOp.andi x v reducesTo_S4096x16x16_S_d0_1_2 h_S_) main_v11 main_c_3
  let main_v13 : IVec S_ 1 := andi main_v8 main_v12
  main_v13
-- ==== Kernel.lean ====
abbrev S4096x1x16 : Shape := ⟨3, ![4096, 1, 16]⟩
abbrev S4096x16 : Shape := ⟨2, ![4096, 16]⟩
abbrev S4096x16x16 : Shape := ⟨3, ![4096, 16, 16]⟩
abbrev S16 : Shape := ⟨1, ![16]⟩
abbrev S_ : Shape := ⟨0, ![]⟩
abbrev S16x1 : Shape := ⟨2, ![16, 1]⟩
abbrev S16x2 : Shape := ⟨2, ![16, 2]⟩
abbrev S4096 : Shape := ⟨1, ![4096]⟩
abbrev S1x4096 : Shape := ⟨2, ![1, 4096]⟩
abbrev S16x4096 : Shape := ⟨2, ![16, 4096]⟩
abbrev S4096x4096 : Shape := ⟨2, ![4096, 4096]⟩
abbrev S256x16 : Shape := ⟨2, ![256, 16]⟩
abbrev S256x4096 : Shape := ⟨2, ![256, 4096]⟩
abbrev S256x1 : Shape := ⟨2, ![256, 1]⟩

abbrev nBuf : Space → Nat
  | .hbm => 35
  | .vmem => 7
  | .smem => 0
  | _ => 0

abbrev bufTy : (tb : Table) → Fin (tcTables nBuf tb) → BufTy
  | .hbm, ⟨0, _⟩ => ⟨S4096x1x16, .f32⟩
  | .hbm, ⟨1, _⟩ => ⟨S4096x16, .f32⟩
  | .hbm, ⟨2, _⟩ => ⟨S4096x16x16, .f32⟩
  | .hbm, ⟨3, _⟩ => ⟨S4096x16, .f32⟩
  | .hbm, ⟨4, _⟩ => ⟨S16, .i32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i1⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S16x1, .i32⟩
  | .hbm, ⟨22, _⟩ => ⟨S16x2, .i32⟩
  | .hbm, ⟨23, _⟩ => ⟨S4096x16, .f32⟩
  | .hbm, ⟨24, _⟩ => ⟨S_, .f32⟩
  | .hbm, ⟨25, _⟩ => ⟨S_, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096, .f32⟩
  | .hbm, ⟨31, _⟩ => ⟨S1x4096, .f32⟩
  | .hbm, ⟨32, _⟩ => ⟨S16x4096, .f32⟩
  | .hbm, ⟨33, _⟩ => ⟨S16x4096, .f32⟩
  | .hbm, ⟨34, _⟩ => ⟨S4096x4096, .f32⟩
  | .local _ .vmem, ⟨0, _⟩ => ⟨S256x16, .f32⟩
  | .local _ .vmem, ⟨1, _⟩ => ⟨S256x16, .f32⟩
  | .local _ .vmem, ⟨2, _⟩ => ⟨S16x4096, .f32⟩
  | .local _ .vmem, ⟨3, _⟩ => ⟨S16x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4096x1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_c_0 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_c_1 : Ref sig .tc := ⟨.hbm, 13, rfl⟩
abbrev main_call0_v7 : Ref sig .tc := ⟨.hbm, 14, rfl⟩
abbrev main_call0_v8 : Ref sig .tc := ⟨.hbm, 15, rfl⟩
abbrev main_call0_c_2 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_v2 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096x1x16_S4096x16 : S4096x1x16.ShapeCasts S4096x16
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  bcast_S_S4096x16 : S_.BroadcastsInDim S4096x16 (![] : Fin 0 → Fin S4096x16.rank)
  reducesTo_S4096x16_S4096_d1 : S4096x16.ReducesTo [1] S4096
  h_S_ : 0 < S_.numel
  shapeCasts_S4096_S1x4096 : S4096.ShapeCasts S1x4096
  transposes_S4096x16_S16x4096_1_0 : S4096x16.Transposes [1, 0] S16x4096
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S256x16_o0_0_S256x1 : S256x16.Slices ![0, 0] S256x1
  slices_S16x4096_o0_0_S1x4096 : S16x4096.Slices ![0, 0] S1x4096
  broadcasts_S256x1_S256x4096 : S256x1.Broadcasts S256x4096
  broadcasts_S1x4096_S256x4096 : S1x4096.Broadcasts S256x4096
  slices_S256x16_o0_1_S256x1 : S256x16.Slices ![0, 1] S256x1
  slices_S16x4096_o1_0_S1x4096 : S16x4096.Slices ![1, 0] S1x4096
  slices_S256x16_o0_2_S256x1 : S256x16.Slices ![0, 2] S256x1
  slices_S16x4096_o2_0_S1x4096 : S16x4096.Slices ![2, 0] S1x4096
  slices_S256x16_o0_3_S256x1 : S256x16.Slices ![0, 3] S256x1
  slices_S16x4096_o3_0_S1x4096 : S16x4096.Slices ![3, 0] S1x4096
  slices_S256x16_o0_4_S256x1 : S256x16.Slices ![0, 4] S256x1
  slices_S16x4096_o4_0_S1x4096 : S16x4096.Slices ![4, 0] S1x4096
  slices_S256x16_o0_5_S256x1 : S256x16.Slices ![0, 5] S256x1
  slices_S16x4096_o5_0_S1x4096 : S16x4096.Slices ![5, 0] S1x4096
  slices_S256x16_o0_6_S256x1 : S256x16.Slices ![0, 6] S256x1
  slices_S16x4096_o6_0_S1x4096 : S16x4096.Slices ![6, 0] S1x4096
  slices_S256x16_o0_7_S256x1 : S256x16.Slices ![0, 7] S256x1
  slices_S16x4096_o7_0_S1x4096 : S16x4096.Slices ![7, 0] S1x4096
  slices_S256x16_o0_8_S256x1 : S256x16.Slices ![0, 8] S256x1
  slices_S16x4096_o8_0_S1x4096 : S16x4096.Slices ![8, 0] S1x4096
  slices_S256x16_o0_9_S256x1 : S256x16.Slices ![0, 9] S256x1
  slices_S16x4096_o9_0_S1x4096 : S16x4096.Slices ![9, 0] S1x4096
  slices_S256x16_o0_10_S256x1 : S256x16.Slices ![0, 10] S256x1
  slices_S16x4096_o10_0_S1x4096 : S16x4096.Slices ![10, 0] S1x4096
  slices_S256x16_o0_11_S256x1 : S256x16.Slices ![0, 11] S256x1
  slices_S16x4096_o11_0_S1x4096 : S16x4096.Slices ![11, 0] S1x4096
  slices_S256x16_o0_12_S256x1 : S256x16.Slices ![0, 12] S256x1
  slices_S16x4096_o12_0_S1x4096 : S16x4096.Slices ![12, 0] S1x4096
  slices_S256x16_o0_13_S256x1 : S256x16.Slices ![0, 13] S256x1
  slices_S16x4096_o13_0_S1x4096 : S16x4096.Slices ![13, 0] S1x4096
  slices_S256x16_o0_14_S256x1 : S256x16.Slices ![0, 14] S256x1
  slices_S16x4096_o14_0_S1x4096 : S16x4096.Slices ![14, 0] S1x4096
  slices_S256x16_o0_15_S256x1 : S256x16.Slices ![0, 15] S256x1
  slices_S16x4096_o15_0_S1x4096 : S16x4096.Slices ![15, 0] S1x4096
  inb_S256x4096_S256x4096_0_0 : ∀ a, (![0, 0] : Fin 2 → Nat) a + S256x4096.size a ≤ S256x4096.size a
  h_S256x4096 : 0 < S256x4096.numel
  gather_S4096x16x16_S16x2_S4096x16_0_12_n_n_12_1_409611_wf : GatherDims.WF S4096x16x16 S16x2 S4096x16 [0] [1, 2] [] [1, 2] [] 1 ![4096, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16.size a ≤ S4096x16.size a
  hwx0_0 : ∀ i : grid0.Coords, EltTy.bits .f32 = 32 ∨ (Rect.block (s := S4096x16) S256x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def gather_S4096x16x16_S16x2_S4096x16_0_12_n_n_12_1_409611 : GatherDims S4096x16x16 S16x2 S4096x16 where
  offsetDims := [0]
  collapsedSliceDims := [1, 2]
  operandBatchingDims := []
  startIndicesBatchingDims := []
  startIndexMap := [1, 2]
  indexVectorDim := 1
  sliceSizes := ![4096, 1, 1]
  wf := gather_S4096x16x16_S16x2_S4096x16_0_12_n_n_12_1_409611_wf

abbrev win0_0 : Pipeline.Window sig grid0 :=
  Pipeline.Window.ofSpec (Memref.whole main_v0) S256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1x16 : Shape := ⟨3, ![4096, 1, 16]⟩
abbrev S4096x16 : Shape := ⟨2, ![4096, 16]⟩
abbrev S4096x16x16 : Shape := ⟨3, ![4096, 16, 16]⟩
abbrev S16 : Shape := ⟨1, ![16]⟩
abbrev S_ : Shape := ⟨0, ![]⟩
abbrev S16x1 : Shape := ⟨2, ![16, 1]⟩
abbrev S16x2 : Shape := ⟨2, ![16, 2]⟩
abbrev S1x4096x16 : Shape := ⟨3, ![1, 4096, 16]⟩
abbrev S4096x4096x16 : Shape := ⟨3, ![4096, 4096, 16]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x1x16, .f32⟩
  | .hbm, ⟨1, _⟩ => ⟨S4096x16, .f32⟩
  | .hbm, ⟨2, _⟩ => ⟨S4096x16x16, .f32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S16x1, .i32⟩
  | .hbm, ⟨21, _⟩ => ⟨S16x2, .i32⟩
  | .hbm, ⟨22, _⟩ => ⟨S4096x16, .f32⟩
  | .hbm, ⟨23, _⟩ => ⟨S_, .f32⟩
  | .hbm, ⟨24, _⟩ => ⟨S_, .f32⟩
  | .hbm, ⟨25, _⟩ => ⟨S4096x16, .f32⟩
  | .hbm, ⟨26, _⟩ => ⟨S4096x16, .f32⟩
  | .hbm, ⟨27, _⟩ => ⟨S1x4096x16, .f32⟩
  | .hbm, ⟨28, _⟩ => ⟨S4096x4096x16, .f32⟩
  | .hbm, ⟨29, _⟩ => ⟨S4096x4096x16, .f32⟩
  | .hbm, ⟨30, _⟩ => ⟨S4096x4096x16, .f32⟩
  | .hbm, ⟨31, _⟩ => ⟨S1x4096x16, .f32⟩
  | .hbm, ⟨32, _⟩ => ⟨S4096x4096x16, .f32⟩
  | .hbm, ⟨33, _⟩ => ⟨S4096x4096x16, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x4096x16, .f32⟩
  | .hbm, ⟨38, _⟩ => ⟨S_, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x16, .f32⟩
  | .hbm, ⟨44, _⟩ => ⟨S_, .f32⟩
  | .hbm, ⟨45, _⟩ => ⟨S4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | _, _ => ⟨S4096x1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_v7 : Ref sig .tc := ⟨.hbm, 13, rfl⟩
abbrev main_call0_v8 : Ref sig .tc := ⟨.hbm, 14, rfl⟩
abbrev main_call0_c_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_0 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  bcast_S_S4096x16 : S_.BroadcastsInDim S4096x16 (![] : Fin 0 → Fin S4096x16.rank)
  bcast_S4096x16_S1x4096x16_1_2 : S4096x16.BroadcastsInDim S1x4096x16 (![1, 2] : Fin 2 → Fin S1x4096x16.rank)
  bcast_S4096x1x16_S4096x4096x16_0_1_2 : S4096x1x16.BroadcastsInDim S4096x4096x16 (![0, 1, 2] : Fin 3 → Fin S4096x4096x16.rank)
  bcast_S1x4096x16_S4096x4096x16_0_1_2 : S1x4096x16.BroadcastsInDim S4096x4096x16 (![0, 1, 2] : Fin 3 → Fin S4096x4096x16.rank)
  reducesTo_S4096x4096x16_S4096x4096_d2 : S4096x4096x16.ReducesTo [2] S4096x4096
  h_S_ : 0 < S_.numel
  bcast_S_S4096x4096 : S_.BroadcastsInDim S4096x4096 (![] : Fin 0 → Fin S4096x4096.rank)
  reducesTo_S4096x16_S4096_d1 : S4096x16.ReducesTo [1] S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S4096x16x16_S16x2_S4096x16_0_12_n_n_12_1_409611_wf : GatherDims.WF S4096x16x16 S16x2 S4096x16 [0] [1, 2] [] [1, 2] [] 1 ![4096, 1, 1]

variable [Facts₀]

def gather_S4096x16x16_S16x2_S4096x16_0_12_n_n_12_1_409611 : GatherDims S4096x16x16 S16x2 S4096x16 where
  offsetDims := [0]
  collapsedSliceDims := [1, 2]
  operandBatchingDims := []
  startIndicesBatchingDims := []
  startIndexMap := [1, 2]
  indexVectorDim := 1
  sliceSizes := ![4096, 1, 1]
  wf := gather_S4096x16x16_S16x2_S4096x16_0_12_n_n_12_1_409611_wf

class Facts : Prop extends Facts₀ where

variable [Facts]
-- ==== Proof.Spec.lean ====
/-
  The function both programs compute, and the two small laws that join them.

  For a stimulus row `b` and a unit `u` the result is the unnormalised Gaussian density with a diagonal scale,
      exp( -1/2 · Σ_{k<16} ((x[b,0,k] - μ[u,k]) / s[u,k])²  -  L[u]  -  c ),
  where `s` is the clamped diagonal of the scale matrices, `L[u]` is the sum of the logarithms of row `u` of `s`,
  and `c` is the constant 16 · (1/2) · log 2π rounded to single precision.  The kernel adds the sixteen squares one after
  the other onto a zero, the reference takes their sum: over the extended reals addition is associative and commutative, so the
  two agree with no finiteness hypothesis.  The kernel spells `c` as ONE single-precision word, the reference as the
  product of three words 16 · (1/2 · w); the three words are exact binary numbers and the product is exactly the kernel's
  word (a factor of eight moves only the exponent).
-/
import Idealize.ShloMosaic.PureOps.Ideal
import Idealize.ShloMosaic.PureOps.Ideal.Laws
import Idealize.ShloMosaic.Lib.ValueIdx

noncomputable section

namespace Cert.GaussianRbf

open Idealize.ShloMosaic Idealize.ShloMosaic.ValueIdx

/-- One coordinate's share: the square of the standardised distance `(a - μ) / s`. -/
def zsq (a μ s : EReal) : EReal := Ideal.div (a - μ) s * Ideal.div (a - μ) s

/-- The word of `-1/2`, kept as a word: both programs spell the same one. -/
abbrev negHalf : EReal := Ideal.ofBits .f32 0xBF000000#32

/-- The kernel's word for the normalising constant `8 · w`, `w` the single-precision `log 2π`. -/
abbrev normConst : EReal := Ideal.ofBits .f32 0x416B3F8E#32

/-- The density array `[4096, 4096]` as ONE function of the stimuli `x : [4096, 1, 16]`, the centres `μ : [4096, 16]`,
    the clamped scales `s : [4096, 16]` and the row sums `L : [4096]` of the scales' logarithms. -/
def density (x : (⟨3, ![4096, 1, 16]⟩ : Shape).Idx → EReal) (μ s : (⟨2, ![4096, 16]⟩ : Shape).Idx → EReal)
    (L : (⟨1, ![4096]⟩ : Shape).Idx → EReal) : (⟨2, ![4096, 4096]⟩ : Shape).Idx → EReal :=
  fun i => Ideal.exp (negHalf * (∑ k : Fin 16, zsq (x (ix3 (i 0) (0 : Fin 1) k)) (μ (ix2 (i 1) k)) (s (ix2 (i 1) k)))
    - L (ix1 (i 1)) - normConst)

/-- Sixteen terms added one after the other onto zero are their sum. -/
theorem sum16_eq_fold (f : Fin 16 → EReal) :
    0 + f 0 + f 1 + f 2 + f 3 + f 4 + f 5 + f 6 + f 7 + f 8 + f 9 + f 10 + f 11 + f 12 + f 13 + f 14 + f 15
      = ∑ k : Fin 16, f k := by
  simp only [Fin.sum_univ_castSucc, Fin.sum_univ_zero]
  rfl

/-! ## The normalising constant -/

theorem ofBits_sixteen : Ideal.ofBits .f32 0x41800000#32 = ((16 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The reference's word for `log 2π`: the binary number `15417230 / 2^23`. -/
theorem ofBits_log2pi : Ideal.ofBits .f32 0x3FEB3F8E#32 = ((15417230 / 8388608 : ℝ) : EReal) := by
  simp [Ideal.ofBits, Ideal.ieee, -EReal.coe_mul]; norm_num

/-- The kernel's word: the same significand three binades up. -/
theorem ofBits_normConst : Ideal.ofBits .f32 0x416B3F8E#32 = ((15417230 / 1048576 : ℝ) : EReal) := by
  simp [Ideal.ofBits, Ideal.ieee, -EReal.coe_mul]; norm_num

/-- `16 · (1/2 · w)` is the kernel's word, exactly. -/
theorem normConst_eq :
    Ideal.ofBits .f32 0x41800000#32 * (Ideal.ofBits .f32 0x3F000000#32 * Ideal.ofBits .f32 0x3FEB3F8E#32) = normConst := by
  rw [ofBits_sixteen, ofBits_half, ofBits_log2pi, normConst, ofBits_normConst, ← EReal.coe_mul, ← EReal.coe_mul]
  congr 1
  norm_num

end Cert.GaussianRbf

end
-- ==== Proof.KernelBody.lean ====
/-
  What the kernel body stores, read at one index of its output block.

  The body loads the stimulus block `X : [256, 16]`, the transposed centres `M : [16, 4096]`, the transposed scales
  `S : [16, 4096]` and the row `L : [1, 4096]`, and stores ONE value over the whole output block `[256, 4096]`.  For
  each coordinate `k < 16` it cuts column `k` of `X` and row `k` of `M` and of `S`, spreads the column along the lanes and the
  rows along the sublanes, and adds the square of the quotient onto the running sum, which starts at zero.  Read at `(p, q)`
  a spread column is the column at `p`, a spread row the row at `q`, a cut the source at the shifted coordinate: so the
  stored value at `(p, q)` is the density's term with `X[p, k]`, `M[k, q]`, `S[k, q]`, `L[0, q]`.
-/
import proofs.«168583_j20263655702738_1_alg».proof.Proof.Gen.KernelIdeal.Frame
import proofs.«168583_j20263655702738_1_alg».proof.Proof.Spec
import Idealize.ShloMosaic.Lib.Pipeline.Value
import Idealize.ShloMosaic.Lib.ValueLayout

set_option maxRecDepth 16384

noncomputable section

namespace Cert.KernelIdeal.Body

open Cert.KernelIdeal Cert.KernelIdeal.Gen Idealize.ShloMosaic Idealize.ShloMosaic.ValueIdx Cert.GaussianRbf

/-- A column `[a, 1]` spread to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, at an index. -/
theorem exp_apply {s : Shape} {φ : FTy} (a : FVec Ideal s φ) (i : s.Idx) : exp a i = Ideal.exp (a i) := rfl

/-- A scalar literal of the body is its word's value. -/
theorem scalar_ofBits (w : BitVec 32) : (Scalar.ofBits .f32 w : Ideal .f32) = Ideal.ofBits .f32 w := rfl

/-- THE BODY'S VALUE AT AN INDEX: the density's term over the four loaded blocks. -/
theorem out_apply (X : Vec Ideal S256x16 .f32) (M S : Vec Ideal S16x4096 .f32) (L : Vec Ideal S1x4096 .f32)
    (p : Fin 256) (q : Fin 4096) :
    out0_4 (F := Ideal) X M S L (ix2 p q)
      = Ideal.exp (negHalf * (∑ k : Fin 16, zsq (X (ix2 p k)) (M (ix2 k q)) (S (ix2 k q))) - L (ix2 (0 : Fin 1) q) - normConst) := by
  have hz : (![0, 0] : Fin 2 → Nat) = fun _ => 0 := by funext a; match a with | ⟨0, _⟩ => rfl | ⟨1, _⟩ => rfl
  unfold out0_4
  rw [View.canon_unit_zero (S := S256x4096) hz]
  simp only [View.ld_unit_zero (S := S256x16) hz, View.ld_unit_zero (S := S16x4096) hz, View.ld_unit_zero (S := S1x4096) hz]
  rw [← sum16_eq_fold]
  simp only [k0_pay1, k0_pay2, k0_pay3, k0_pay4, k0_pay5, k0_pay6, k0_pay7, k0_pay8, k0_pay9, k0_pay10,
    shapeCast_self, exp_apply, mulf_apply, addf_apply, subf_apply, divf_apply, broadcast_apply,
    broadcastTo_1b_ab_apply, broadcastTo_a1_ab_apply, slice2_axis0_eq, slice2_axis1_eq, scalar_ofBits, Ideal.ofBits_def,
    Ideal.ofBits_zero_f32]
  rfl

/-- The same at an index of the block given whole: row `j 0`, lane `j 1`. -/
theorem out_apply_idx (X : Vec Ideal S256x16 .f32) (M S : Vec Ideal S16x4096 .f32) (L : Vec Ideal S1x4096 .f32)
    (j : S256x4096.Idx) :
    out0_4 (F := Ideal) X M S L j
      = Ideal.exp (negHalf * (∑ k : Fin 16, zsq (X (ix2 (j 0) k)) (M (ix2 k (j 1))) (S (ix2 k (j 1))))
          - L (ix2 (0 : Fin 1) (j 1)) - normConst) := by
  obtain ⟨p, q, rfl⟩ : ∃ (p : Fin 256) (q : Fin 4096), j = ix2 p q := ⟨j 0, j 1, eq_ix2 j⟩
  exact out_apply X M S L p q

end Cert.KernelIdeal.Body

end
-- ==== Proof.KernelValue.lean ====
/-
  The kernel's output array after the run, as one function of the arrays the region stages.

  Grid point `t` of sixteen computes rows `256 t … 256 t + 255` of the output: it stages rows `256 t …` of the stimuli and,
  whole, the transposed centres, the transposed scales and the row of log-sums.  So what point `t` writes back is block `t` of
  ONE function of the staged arrays; the sixteen blocks tile the `4096` rows, and the array ends holding that function.
-/
import proofs.«168583_j20263655702738_1_alg».proof.Proof.Gen.KernelIdeal.Value
import proofs.«168583_j20263655702738_1_alg».proof.Proof.KernelBody
import Idealize.ShloMosaic.Lib.Pipeline.Value
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GaussianRbf
open Idealize.ShloMosaic.Pipeline (Dat)

variable (m : (ℓ : Loc nD τ sig) → Buf (Elt Ideal) ℓ) (ρ : Dev nD → PrngReg)

/-- The four staged arrays as the region finds them, at their literal types. -/
abbrev stim (c : Dev nD) : S4096x16.Idx → EReal := V m c main_v0
abbrev centresT (c : Dev nD) : S16x4096.Idx → EReal := V m c main_v6
abbrev scalesT (c : Dev nD) : S16x4096.Idx → EReal := V m c main_v7
abbrev logRow (c : Dev nD) : S1x4096.Idx → EReal := V m c main_v5

/-- The output array over the staged arrays: entry `(b, u)` is the density's term of row `b` of the stimuli and
    column `u` of the transposed centres and scales. -/
def staged (c : Dev nD) : S4096x4096.Idx → EReal := fun i =>
  Ideal.exp (negHalf * (∑ k : Fin 16, zsq (stim m c (ix2 (i 0) k)) (centresT m c (ix2 k (i 1))) (scalesT m c (ix2 k (i 1))))
    - logRow m c (ix2 (0 : Fin 1) (i 1)) - normConst)

/-- The printed index maps over the sixteen points: the stimuli's block moves with the output's along the rows, the
    other three windows stay at their one block, and the output's block index is the point's row block. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 15 ∧ win0_4.index t (1 : Fin 2) = 0 :=
  (by decide +kernel : ∀ t : Fin grid0.N, _)

/-- Every row block is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-- WHAT POINT `t` WRITES BACK is block `t` of `staged`. -/
theorem flushed_eq (c : Dev nD) (t : Fin cfg0.N) :
    (dats m 0 c).flushed 4 t = ((cfg0.win 4).blk t).view.read (Elt Ideal) (staged m c) := by
  rw [Value.flushed4]
  obtain ⟨e0, e1, e2, e3, e4, e5, e6, e7, e8, e9⟩ := idx_facts t
  funext j
  show out0_4 (iblk m c 0 t) (iblk m c 1 t) (iblk m c 2 t) (iblk m c 3 t) j = staged m c (((cfg0.win 4).blk t).view.emb j)
  refine (Body.out_apply_idx (iblk m c 0 t) (iblk m c 1 t) (iblk m c 2 t) (iblk m c 3 t) j).trans ?_
  unfold staged
  refine congrArg Ideal.exp ?_
  refine congrArg₂ (· - ·) (congrArg₂ (· - ·) (congrArg (negHalf * ·) (Finset.sum_congr rfl fun k _ => ?_)) ?_) rfl
  · -- the three blocks of coordinate `k`: the stimuli's rows move with the output's, the two transposed arrays stay
    have hX : iblk m c 0 t (ix2 (j 0) k) = stim m c (ix2 (((cfg0.win 4).blk t).view.emb j 0) k) := by
      show V m c main_v0 (((cfg0.win 0).blk t).view.emb (ix2 (j 0) k))
        = V m c main_v0 (ix2 (((cfg0.win 4).blk t).view.emb j 0) k)
      refine congrArg (V m c main_v0) (funext fun a => Fin.ext ?_)
      match a with
      | ⟨0, _⟩ =>
        show win0_0.index t (0 : Fin 2) * 256 + 1 * (j 0).val = win0_4.index t (0 : Fin 2) * 256 + 1 * (j 0).val
        omega
      | ⟨1, _⟩ =>
        show win0_0.index t (1 : Fin 2) * 16 + 1 * k.val = k.val
        omega
    have hM : iblk m c 1 t (ix2 k (j 1)) = centresT m c (ix2 k (((cfg0.win 4).blk t).view.emb j 1)) := by
      show V m c main_v6 (((cfg0.win 1).blk t).view.emb (ix2 k (j 1)))
        = V m c main_v6 (ix2 k (((cfg0.win 4).blk t).view.emb j 1))
      refine congrArg (V m c main_v6) (funext fun a => Fin.ext ?_)
      match a with
      | ⟨0, _⟩ =>
        show win0_1.index t (0 : Fin 2) * 16 + 1 * k.val = k.val
        omega
      | ⟨1, _⟩ =>
        show win0_1.index t (1 : Fin 2) * 4096 + 1 * (j 1).val = win0_4.index t (1 : Fin 2) * 4096 + 1 * (j 1).val
        omega
    have hS : iblk m c 2 t (ix2 k (j 1)) = scalesT m c (ix2 k (((cfg0.win 4).blk t).view.emb j 1)) := by
      show V m c main_v7 (((cfg0.win 2).blk t).view.emb (ix2 k (j 1)))
        = V m c main_v7 (ix2 k (((cfg0.win 4).blk t).view.emb j 1))
      refine congrArg (V m c main_v7) (funext fun a => Fin.ext ?_)
      match a with
      | ⟨0, _⟩ =>
        show win0_2.index t (0 : Fin 2) * 16 + 1 * k.val = k.val
        omega
      | ⟨1, _⟩ =>
        show win0_2.index t (1 : Fin 2) * 4096 + 1 * (j 1).val = win0_4.index t (1 : Fin 2) * 4096 + 1 * (j 1).val
        omega
    exact congr (congr (congrArg zsq hX) hM) hS
  · -- the row of log-sums, whole at every point
    show V m c main_v5 (((cfg0.win 3).blk t).view.emb (ix2 (0 : Fin 1) (j 1)))
      = V m c main_v5 (ix2 (0 : Fin 1) (((cfg0.win 4).blk t).view.emb j 1))
    refine congrArg (V m c main_v5) (funext fun a => Fin.ext ?_)
    match a with
    | ⟨0, _⟩ =>
      show win0_3.index t (0 : Fin 2) * 1 + 1 * 0 = 0
      omega
    | ⟨1, _⟩ =>
      show win0_3.index t (1 : Fin 2) * 4096 + 1 * (j 1).val = win0_4.index t (1 : Fin 2) * 4096 + 1 * (j 1).val
      omega

/-- An index of the output array is in point `t`'s block iff each coordinate is in the block's range on its axis. -/
theorem mem_blk (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v8).slice (win0_4.rect t)).set ↔ _
  rw [View.set_slice_whole, Rect.mem_set_unit]
  exact Iff.rfl

/-- The sixteen row blocks tile the array: row `r` is in the block of the point whose row block is `r / 256`. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 4096 ≤ (i 1).val ∧ (i 1).val < win0_4.index t (1 : Fin 2) * 4096 + 4096
    omega

/-- THE ARRAY after the run is `staged`. -/
theorem final (c : Dev nD) : (dats m 0 c).arrAt 4 cfg0.N = staged m c :=
  (dats m 0 c).arrAt_eq_of_cover 4 (staged m c) (fun t _ => flushed_eq m c t) cover

end Cert.KernelIdeal.Whole

end
-- ==== Proof.KernelHost.lean ====
/-
  What the region finds in the four arrays it stages: each as a function of the program's arguments.

  Before the region the program drops the stimuli's unit axis, `X = reshape x : [4096, 16]`; takes the diagonal of every
  scale matrix and clamps it from below, `s = max(1e-6, diag a) : [4096, 16]`; sums each row of `log s`, laid out as a
  row vector `[1, 4096]`; and transposes the centres and the clamped scales to `[16, 4096]`.
-/
import proofs.«168583_j20263655702738_1_alg».proof.Proof.Gen.KernelIdeal.Frame
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The clamped scales: the diagonal of every `16 × 16` matrix (a gather at the index pairs `(k, k)`), not below `1e-6`. -/
def clampedDiag (x2 : (⟨S4096x16x16, .f32⟩ : BufTy).Contents (Elt F)) : (⟨S4096x16, .f32⟩ : BufTy).Contents (Elt F) :=
  (maximumf (broadcastInDim S4096x16 ![] bcast_S_S4096x16 (id (constant S_ .f32 0x358637BD#32))) (Host.gather gather_S4096x16x16_S16x2_S4096x16_0_12_n_n_12_1_409611 (x2) (concatenate S16x2 1 [⟨S16x1, (broadcastInDim S16x1 ![0] bcast_S16_S16x1_0 (select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0)))⟩, ⟨S16x1, (broadcastInDim S16x1 ![0] bcast_S16_S16x1_0 (select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0)))⟩] concatenates_S16x1_S16x1_S16x2_d1)))

/-- The row sums of the clamped scales' logarithms. -/
def logRowSums (x2 : (⟨S4096x16x16, .f32⟩ : BufTy).Contents (Elt F)) : (⟨S4096, .f32⟩ : BufTy).Contents (Elt F) :=
  Host.reduceAdd (Host.log (clampedDiag x2)) (constant S_ .f32 0x00000000#32) reducesTo_S4096x16_S4096_d1 h_S_

/-- The stimuli with their unit axis dropped. -/
theorem V_main_v0 (c : Dev nD) :
    V m c main_v0 = shapeCast S4096x16 (m ((c : Thread nD τ).loc main_arg0)) shapeCasts_S4096x1x16_S4096x16 := by
  dsimp only [V]
  simp only [hostOps0, hostOps0_1, hostOps0_2, hostOps0_3, hostOps0_4, List.flatten_cons, List.flatten_nil, List.append_nil,
    List.cons_append, List.nil_append]
  after_results
  rfl

/-- The centres, transposed. -/
theorem V_main_v6 (c : Dev nD) :
    V m c main_v6 = transpose S16x4096 [1, 0] (m ((c : Thread nD τ).loc main_arg1)) transposes_S4096x16_S16x4096_1_0 := by
  dsimp only [V]
  simp only [hostOps0, hostOps0_1, hostOps0_2, hostOps0_3, hostOps0_4, List.flatten_cons, List.flatten_nil, List.append_nil,
    List.cons_append, List.nil_append]
  after_results

set_option maxHeartbeats 2000000 in
/-- The clamped scales, transposed. -/
theorem V_main_v7 (c : Dev nD) :
    V m c main_v7 = transpose S16x4096 [1, 0] (clampedDiag (m ((c : Thread nD τ).loc main_arg2))) transposes_S4096x16_S16x4096_1_0 := by
  dsimp only [V]
  simp only [hostOps0, hostOps0_1, hostOps0_2, hostOps0_3, hostOps0_4, List.flatten_cons, List.flatten_nil, List.append_nil,
    List.cons_append, List.nil_append]
  after_results_simp
  rfl

set_option maxHeartbeats 2000000 in
/-- The row sums of the logarithms, as a row vector. -/
theorem V_main_v5 (c : Dev nD) :
    V m c main_v5 = shapeCast S1x4096 (logRowSums (m ((c : Thread nD τ).loc main_arg2))) shapeCasts_S4096_S1x4096 := by
  dsimp only [V]
  simp only [hostOps0, hostOps0_1, hostOps0_2, hostOps0_3, hostOps0_4, List.flatten_cons, List.flatten_nil, List.append_nil,
    List.cons_append, List.nil_append]
  after_results_simp
  rfl

end Cert.KernelIdeal.HostSide

end
-- ==== Proof.KernelDensity.lean ====
/-
  The kernel's result is the density of the program's arguments.

  The staged arrays are re-laid arguments: the stimuli with the unit axis dropped, the centres and the clamped scales
  transposed, the log-sums as a row vector.  A dropped unit axis reads `(b, k)` at `(b, 0, k)`, a transpose reads `(k, u)` at
  `(u, k)`, the row vector reads `(0, u)` at `u`: so the output array, which is the density's term over the staged arrays,
  is the density of the stimuli, the centres, the clamped scales and their log-sums.
-/
import proofs.«168583_j20263655702738_1_alg».proof.Proof.KernelValue
import proofs.«168583_j20263655702738_1_alg».proof.Proof.KernelHost

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GaussianRbf
open Idealize.ShloMosaic.Pipeline (Dat)

variable (m : (ℓ : Loc nD τ sig) → Buf (Elt Ideal) ℓ) (ρ : Dev nD → PrngReg)

/-- An `[a, 1, b]` array cast to `[a, b]` reads, at `(i, j)`, the operand at `(i, 0, j)`: the two have one row-major position. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The output array over the staged arrays is the density of the arguments. -/
theorem staged_eq (c : Dev nD) :
    staged m c = density (m ((c : Thread nD τ).loc main_arg0)) (m ((c : Thread nD τ).loc main_arg1))
      (HostSide.clampedDiag (m ((c : Thread nD τ).loc main_arg2))) (HostSide.logRowSums (m ((c : Thread nD τ).loc main_arg2))) := by
  funext i
  unfold staged density
  show Ideal.exp (negHalf * (∑ k : Fin 16, zsq (V m c main_v0 (ix2 (i 0) k)) (V m c main_v6 (ix2 k (i 1))) (V m c main_v7 (ix2 k (i 1))))
    - V m c main_v5 (ix2 (0 : Fin 1) (i 1)) - normConst) = _
  rw [HostSide.V_main_v0, HostSide.V_main_v6, HostSide.V_main_v7, HostSide.V_main_v5]
  have hx : ∀ k : Fin 16, shapeCast S4096x16 (m ((c : Thread nD τ).loc main_arg0)) shapeCasts_S4096x1x16_S4096x16 (ix2 (i 0) k)
      = m ((c : Thread nD τ).loc main_arg0) (ix3 (i 0) (0 : Fin 1) k) := fun k =>
    shapeCast_a1b_ab_apply (α := EReal) (a := 4096) (b := 16) (m ((c : Thread nD τ).loc main_arg0)) shapeCasts_S4096x1x16_S4096x16 (i 0) k
  have hμ : ∀ k : Fin 16, transpose S16x4096 [1, 0] (m ((c : Thread nD τ).loc main_arg1)) transposes_S4096x16_S16x4096_1_0 (ix2 k (i 1))
      = m ((c : Thread nD τ).loc main_arg1) (ix2 (i 1) k) := fun k =>
    transpose_ix2_apply (α := EReal) (a := 4096) (b := 16) (m ((c : Thread nD τ).loc main_arg1)) transposes_S4096x16_S16x4096_1_0 k (i 1)
  have hs : ∀ k : Fin 16, transpose S16x4096 [1, 0] (HostSide.clampedDiag (m ((c : Thread nD τ).loc main_arg2))) transposes_S4096x16_S16x4096_1_0 (ix2 k (i 1))
      = HostSide.clampedDiag (m ((c : Thread nD τ).loc main_arg2)) (ix2 (i 1) k) := fun k =>
    transpose_ix2_apply (α := EReal) (a := 4096) (b := 16) (HostSide.clampedDiag (m ((c : Thread nD τ).loc main_arg2))) transposes_S4096x16_S16x4096_1_0 k (i 1)
  have hl : shapeCast S1x4096 (HostSide.logRowSums (m ((c : Thread nD τ).loc main_arg2))) shapeCasts_S4096_S1x4096 (ix2 (0 : Fin 1) (i 1))
      = HostSide.logRowSums (m ((c : Thread nD τ).loc main_arg2)) (ix1 (i 1)) :=
    shapeCast_a_1a_apply (α := EReal) (a := 4096) (HostSide.logRowSums (m ((c : Thread nD τ).loc main_arg2))) shapeCasts_S4096_S1x4096 (0 : Fin 1) (i 1)
  simp only [hx, hμ, hs, hl]

/-- THE KERNEL'S RUN: every execution ends with the output array at the density of the arguments, the arguments unchanged. -/
theorem run : θ_run defs (onTc (τ := τ) (main (F := Ideal))) ⟨m, fun _ => 0, ρ⟩ fun r => ∀ c : Dev nD,
      r.2.mem ((c : Thread nD τ).loc main_v8) = density (m ((c : Thread nD τ).loc main_arg0)) (m ((c : Thread nD τ).loc main_arg1))
        (HostSide.clampedDiag (m ((c : Thread nD τ).loc main_arg2))) (HostSide.logRowSums (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (staged_eq m c)), (h c).2⟩)
    (Value.run_blocks m ρ)

end Cert.KernelIdeal.Whole

end
-- ==== Proof.RefValue.lean ====
/-
  The reference's result is the density.

  The reference spreads the stimuli `[4096, 1, 16]` and the centres and clamped scales `[4096, 16]` over
  `[4096, 4096, 16]`, takes the quotient's square there and sums the last axis; it then subtracts the log-sums, spread over
  the rows, and the constant `16 · (1/2 · w)`.  Read at `(b, u)` the spread arrays are the stimuli at `(b, 0, k)` and the
  centres and scales at `(u, k)`, the sum starts from the word of zero, and the constant is the kernel's word
  (`normConst_eq`): the density, entry by entry.
-/
import proofs.«168583_j20263655702738_1_alg».proof.Proof.Gen.ReferenceIdeal.Read
import proofs.«168583_j20263655702738_1_alg».proof.Proof.Spec
import Idealize.ShloMosaic.Lib.ValueIdx

noncomputable section

namespace Cert.ReferenceIdeal.Density

open Cert.ReferenceIdeal Cert.ReferenceIdeal.Read Idealize.ShloMosaic Idealize.ShloMosaic.ValueIdx Cert.GaussianRbf

/-- Entry `(b, u, k)` of the spread stimuli is the stimulus `(b, 0, k)`. -/
theorem idx_stim (b u : Fin 4096) (k : Fin 16) : idx_main_v3 (idx_main_v11 (ix2 b u) k) = ix3 b (0 : Fin 1) k :=
  funext fun a => Fin.ext (by match a with | ⟨0, _⟩ => rfl | ⟨1, _⟩ => rfl | ⟨2, _⟩ => rfl)

/-- Entry `(b, u, k)` of the spread centres is the centre `(u, k)`. -/
theorem idx_centre (b u : Fin 4096) (k : Fin 16) : idx_main_v2 (idx_main_v4 (idx_main_v11 (ix2 b u) k)) = ix2 u k :=
  funext fun a => Fin.ext (by match a with | ⟨0, _⟩ => rfl | ⟨1, _⟩ => rfl)

/-- Entry `(b, u, k)` of the spread scales is the scale `(u, k)`. -/
theorem idx_scale (b u : Fin 4096) (k : Fin 16) : idx_main_v6 (idx_main_v7 (idx_main_v11 (ix2 b u) k)) = ix2 u k :=
  funext fun a => Fin.ext (by match a with | ⟨0, _⟩ => rfl | ⟨1, _⟩ => rfl)

/-- Entry `(b, u)` of the spread log-sums is the log-sum of unit `u`. -/
theorem idx_logsum (b u : Fin 4096) : idx_main_v16 (idx_main_v17 (ix2 b u)) = ix1 u :=
  funext fun a => Fin.ext (by match a with | ⟨0, _⟩ => rfl)

/-- THE REFERENCE IS THE DENSITY of its arguments, the clamped scales `val_main_v1` and their log-sums `val_main_v15`. -/
theorem result_eq (x0 : (⟨S4096x1x16, .f32⟩ : BufTy).Contents (Elt Ideal)) (x1 : (⟨S4096x16, .f32⟩ : BufTy).Contents (Elt Ideal))
    (x2 : (⟨S4096x16x16, .f32⟩ : BufTy).Contents (Elt Ideal)) :
    val_main_v22 (F := Ideal) x0 x1 x2 = density x0 x1 (val_main_v1 (F := Ideal) x2) (val_main_v15 (F := Ideal) x2) := by
  funext i
  obtain ⟨b, u, rfl⟩ : ∃ (b u : Fin 4096), i = ix2 b u := ⟨i 0, i 1, eq_ix2 i⟩
  rw [val_main_v22_apply, val_main_v21_apply, val_main_v18_apply, val_main_v13_apply, val_main_v12_apply, val_main_cst_3_apply,
    val_main_v11_apply, val_main_cst_2_apply, val_main_v17_apply, val_main_v16_apply, val_main_v20_apply, val_main_v19_apply,
    val_main_cst_5_apply, val_main_v9_apply, val_main_cst_0_apply, val_main_cst_1_apply]
  simp only [val_main_v10_apply, val_main_v8_apply, val_main_v5_apply, val_main_v3_apply, val_main_v4_apply, val_main_v2_apply,
    val_main_v7_apply, val_main_v6_apply, idx_stim, idx_centre, idx_scale, idx_logsum]
  simp only [Ideal.hostUnary_exp_def, Ideal.subf_def, Ideal.mulf_def, Ideal.hostDivf_def, Ideal.ofBits_def,
    Ideal.ofBits_zero_f32, zero_add]
  rw [normConst_eq]
  rfl

end Cert.ReferenceIdeal.Density

end
-- ==== Proof.lean ====
/-
  A Gaussian radial-basis layer: for 4096 stimuli `x[b] ∈ ℝ¹⁶` and 4096 units with centres `μ[u]` and diagonal scale
  matrices, the activation of unit `u` on stimulus `b` is
      exp( -1/2 · Σ_{k<16} ((x[b,k] - μ[u,k]) / s[u,k])²  -  Σ_k log s[u,k]  -  16 · (1/2) · log 2π ),
  with `s[u,k] = max(1e-6, a[u,k,k])` the clamped diagonal of the scale matrix.

  The kernel computes rows of the `[4096, 4096]` result 256 at a time.  Outside the kernel it drops the stimuli's unit axis,
  takes and clamps the diagonals, sums the logarithms of each unit's scales, and transposes the centres and the scales so that
  the sixteen coordinates lie along sublanes; inside, it adds the sixteen squared quotients one after the other onto zero,
  scales by `-1/2`, subtracts the unit's log-sum and ONE single-precision word for the constant, and exponentiates.  The
  reference spreads everything over `[4096, 4096, 16]`, sums the last axis, and spells the constant as the product of three
  words `16 · (1/2 · w)`.

  Over the extended reals the two are one function, with no appeal to the inputs being finite: a sum of sixteen terms does not
  depend on how it is bracketed (Proof/Spec.lean `sum16_eq_fold`), the three words' product is exactly the kernel's word, a
  factor of eight moving only the exponent (`normConst_eq`), and the clamped diagonals and their log-sums are the same terms
  of the scale matrices in both programs (`scales_eq`, `logsums_eq`).  Proof/KernelBody.lean reads the stored value at an
  index, Proof/KernelValue.lean assembles the sixteen row blocks into the array, Proof/KernelHost.lean and
  Proof/KernelDensity.lean read the staged arrays back to the arguments, Proof/RefValue.lean reads the reference.
  The idealization rewrote nothing, so the kernel's idealized text is its own text at the extended reals.
-/
import proofs.«168583_j20263655702738_1_alg».proof.Defs
import proofs.«168583_j20263655702738_1_alg».proof.Proof.Gen.Kernel
import proofs.«168583_j20263655702738_1_alg».proof.Proof.Gen.Kernel.Skeleton
import proofs.«168583_j20263655702738_1_alg».proof.Proof.Gen.Kernel.Launch
import proofs.«168583_j20263655702738_1_alg».proof.Proof.Gen.Kernel.Points
import proofs.«168583_j20263655702738_1_alg».proof.Proof.Gen.Kernel.Frame
import proofs.«168583_j20263655702738_1_alg».proof.Proof.Gen.KernelIdeal
import proofs.«168583_j20263655702738_1_alg».proof.Proof.Gen.KernelIdeal.Skeleton
import proofs.«168583_j20263655702738_1_alg».proof.Proof.Gen.KernelIdeal.Launch
import proofs.«168583_j20263655702738_1_alg».proof.Proof.Gen.KernelIdeal.Points
import proofs.«168583_j20263655702738_1_alg».proof.Proof.Gen.KernelIdeal.Frame
import proofs.«168583_j20263655702738_1_alg».proof.Proof.Gen.ReferenceIdeal
import proofs.«168583_j20263655702738_1_alg».proof.Proof.Gen.Pre_finite_inputs
import proofs.«168583_j20263655702738_1_alg».proof.Proof.Gen.KernelIdeal.Value
import proofs.«168583_j20263655702738_1_alg».proof.Proof.Gen.ReferenceIdeal.Run
import proofs.«168583_j20263655702738_1_alg».proof.Proof.Gen.ReferenceIdeal.Read
import proofs.«168583_j20263655702738_1_alg».proof.Proof.KernelDensity
import proofs.«168583_j20263655702738_1_alg».proof.Proof.RefValue
import Idealize.ShloMosaic.Adequacy
import Idealize.ShloMosaic.Init

noncomputable section

namespace Cert.Proof

open Idealize.ShloMosaic Idealize.ShloMosaic.TcCoe Idealize.SL.Sem

/-- Both programs clamp the same diagonals: the same gather at the index pairs `(k, k)`, the same lower bound. -/
theorem scales_eq (x2 : (⟨Cert.KernelIdeal.S4096x16x16, .f32⟩ : BufTy).Contents (Elt Ideal)) :
    Cert.KernelIdeal.HostSide.clampedDiag (F := Ideal) x2 = Cert.ReferenceIdeal.Read.val_main_v1 (F := Ideal) x2 := rfl

/-- And sum the same logarithms over each unit's sixteen scales. -/
theorem logsums_eq (x2 : (⟨Cert.KernelIdeal.S4096x16x16, .f32⟩ : BufTy).Contents (Elt Ideal)) :
    Cert.KernelIdeal.HostSide.logRowSums (F := Ideal) x2 = Cert.ReferenceIdeal.Read.val_main_v15 (F := Ideal) x2 := rfl

/-- The kernel as printed runs to the end and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's output array ends at the density of the arguments (`Whole.run`) and the
    reference's result at its last stage, which is the density of the same arrays (`Density.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v22_eq,
    Cert.ReferenceIdeal.Density.result_eq, scales_eq, logsums_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
